-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S4096x4 : Shape := ⟨2, ![4096, 4]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4 : S_.BroadcastsInDim S4096x4 (![] : Fin 0 → Fin S4096x4.rank)
  reducesTo_S4096x4_S_d0_1 : S4096x4.ReducesTo [0, 1] S_

variable [Facts]

def fn_part1 {F : FTy → Type} [FloatOps F] (main_arg4 : FVec F S4096x4 .f32) (main_arg5 : FVec F S4096x4096 .f32) (main_v13 : IVec S_ 1) (main_v16 : IVec S4096x4 1) : IVec S_ 1 :=
  let main_c_5 : IVec S_ 1 := constantI S_ 1 1#1
  let main_v17 : IVec S_ 1 := (fun x v => Host.reduce IntOp.andi x v reducesTo_S4096x4_S_d0_1 h_S_) main_v16 main_c_5
  let main_v18 : IVec S_ 1 := andi main_v13 main_v17
  let main_v19 : FVec F S4096x4 .f32 := Host.absf main_arg4
  let main_cst_6 : FVec F S_ .f32 := constant S_ .f32 0x7F800000#32
  let main_v20 : FVec F S4096x4 .f32 := broadcastInDim S4096x4 ![] bcast_S_S4096x4 main_cst_6
  let main_v21 : IVec S4096x4 1 := cmpf .olt main_v19 main_v20
  let main_c_7 : IVec S_ 1 := constantI S_ 1 1#1
  let main_v22 : IVec S_ 1 := (fun x v => Host.reduce IntOp.andi x v reducesTo_S4096x4_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S4096x4096 .f32) (main_arg1 : FVec F S4096x4096 .f32) (main_arg2 : FVec F S4096 .f32) (main_arg3 : FVec F S4096x4 .f32) (main_arg4 : FVec F S4096x4 .f32) (main_arg5 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4 .f32 := Host.absf main_arg3
  let main_cst_4 : FVec F S_ .f32 := constant S_ .f32 0x7F800000#32
  let main_v15 : FVec F S4096x4 .f32 := broadcastInDim S4096x4 ![] bcast_S_S4096x4 main_cst_4
  let main_v16 : IVec S4096x4 1 := cmpf .olt main_v14 main_v15
  fn_part1 (F := F) main_arg4 main_arg5 main_v13 main_v16
-- ==== Kernel.lean ====
abbrev S4096x4096 : Shape := ⟨2, ![4096, 4096]⟩
abbrev S4096 : Shape := ⟨1, ![4096]⟩
abbrev S4096x4 : Shape := ⟨2, ![4096, 4]⟩
abbrev S4x4096 : Shape := ⟨2, ![4, 4096]⟩
abbrev S1x4096 : Shape := ⟨2, ![1, 4096]⟩
abbrev S512x512 : Shape := ⟨2, ![512, 512]⟩
abbrev S512x1024 : Shape := ⟨2, ![512, 1024]⟩
abbrev S1024x512 : Shape := ⟨2, ![1024, 512]⟩
abbrev S1x512 : Shape := ⟨2, ![1, 512]⟩
abbrev S4x512 : Shape := ⟨2, ![4, 512]⟩
abbrev S512x4 : Shape := ⟨2, ![512, 4]⟩

abbrev nBuf : Space → Nat
  | .hbm => 14
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4, .f32⟩
  | .hbm, ⟨4, _⟩ => ⟨S4096x4, .f32⟩
  | .hbm, ⟨5, _⟩ => ⟨S4096x4096, .f32⟩
  | .hbm, ⟨6, _⟩ => ⟨S4096x4, .f32⟩
  | .hbm, ⟨7, _⟩ => ⟨S4096x4096, .bf16⟩
  | .hbm, ⟨8, _⟩ => ⟨S4096x4096, .bf16⟩
  | .hbm, ⟨9, _⟩ => ⟨S4096x4, .bf16⟩
  | .hbm, ⟨10, _⟩ => ⟨S4x4096, .f32⟩
  | .hbm, ⟨11, _⟩ => ⟨S4x4096, .bf16⟩
  | .hbm, ⟨12, _⟩ => ⟨S1x4096, .f32⟩
  | .hbm, ⟨13, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S4x512, .bf16⟩
  | .local _ .vmem, ⟨9, _⟩ => ⟨S4x512, .bf16⟩
  | .local _ .vmem, ⟨10, _⟩ => ⟨S512x4, .bf16⟩
  | .local _ .vmem, ⟨11, _⟩ => ⟨S512x4, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S4x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x4 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bitsLt_bf16_f32 : FTy.bits .bf16 < FTy.bits .f32
  transposes_S4096x4_S4x4096_1_0 : S4096x4.Transposes [1, 0] S4x4096
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x4_S512x4_0_0 : ∀ a, (![0, 0] : Fin 2 → Nat) a + S512x4.size a ≤ S512x4.size a
  h_S512x4 : 0 < S512x4.numel
  shapeCasts_S512x4_S512x4 : S512x4.ShapeCasts S512x4
  inb_S4x512_S4x512_0_0 : ∀ a, (![0, 0] : Fin 2 → Nat) a + S4x512.size a ≤ S4x512.size a
  h_S4x512 : 0 < S4x512.numel
  shapeCasts_S4x512_S4x512 : S4x512.ShapeCasts S4x512
  broadcasts_S1x512_S512x512 : S1x512.Broadcasts S512x512
  dot_S4096x4096_S4096x4_S4096x4_1_0_0_1_n_n_wf : DotDims.WF S4096x4096 S4096x4 S4096x4 [1] [0] [0] [1] [] []
  dot_S512x1024_S1024x512_S512x512_1_0_0_1_n_n_wf : DotDims.WF S512x1024 S1024x512 S512x512 [1] [0] [0] [1] [] []
  dot_S512x4_S4x512_S512x512_1_0_0_1_n_n_wf : DotDims.WF S512x4 S4x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .bf16 = 32 ∨ (Rect.block (s := S4096x4096) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512.size a ≤ S4x4096.size a
  hwx0_4 : ∀ i : grid0.Coords, EltTy.bits .bf16 = 32 ∨ (Rect.block (s := S4x4096) S4x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4.size a ≤ S4096x4.size a
  hwx0_5 : ∀ i : grid0.Coords, EltTy.bits .bf16 = 32 ∨ (Rect.block (s := S4096x4) S512x4.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .f32 = 32 ∨ (Rect.block (s := S4096x4096) S512x512.size (cc0_transform_6 i) (hinb0_6 i)).WholeWords (EltTy.packing .f32)

variable [Facts₀]

def dot_S4096x4096_S4096x4_S4096x4_1_0_0_1_n_n : DotDims S4096x4096 S4096x4 S4096x4 where
  lhsContracting := [1]
  rhsContracting := [0]
  lhsNonContracting := [0]
  rhsNonContracting := [1]
  lhsBatch := []
  rhsBatch := []
  wf := dot_S4096x4096_S4096x4_S4096x4_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x4_S4x512_S512x512_1_0_0_1_n_n : DotDims S512x4 S4x512 S512x512 where
  lhsContracting := [1]
  rhsContracting := [0]
  lhsNonContracting := [0]
  rhsNonContracting := [1]
  lhsBatch := []
  rhsBatch := []
  wf := dot_S512x4_S4x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S4096x4 : Shape := ⟨2, ![4096, 4]⟩
abbrev S1x4096 : Shape := ⟨2, ![1, 4096]⟩
abbrev S4x4096 : Shape := ⟨2, ![4, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4, .f32⟩
  | .hbm, ⟨4, _⟩ => ⟨S4096x4, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4, .f32⟩
  | .hbm, ⟨10, _⟩ => ⟨S4x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4_S4x4096_1_0 : S4096x4.Transposes [1, 0] S4x4096
  bcast_S_S4096x4096 : S_.BroadcastsInDim S4096x4096 (![] : Fin 0 → Fin S4096x4096.rank)
  dot_S4096x4096_S4096x4_S4096x4_1_0_0_1_n_n_wf : DotDims.WF S4096x4096 S4096x4 S4096x4 [1] [0] [0] [1] [] []
  dot_S4096x4_S4x4096_S4096x4096_1_0_0_1_n_n_wf : DotDims.WF S4096x4 S4x4096 S4096x4096 [1] [0] [0] [1] [] []
  dot_S4096x4096_S4096x4096_S4096x4096_1_0_0_1_n_n_wf : DotDims.WF S4096x4096 S4096x4096 S4096x4096 [1] [0] [0] [1] [] []

variable [Facts₀]

def dot_S4096x4096_S4096x4_S4096x4_1_0_0_1_n_n : DotDims S4096x4096 S4096x4 S4096x4 where
  lhsContracting := [1]
  rhsContracting := [0]
  lhsNonContracting := [0]
  rhsNonContracting := [1]
  lhsBatch := []
  rhsBatch := []
  wf := dot_S4096x4096_S4096x4_S4096x4_1_0_0_1_n_n_wf
def dot_S4096x4_S4x4096_S4096x4096_1_0_0_1_n_n : DotDims S4096x4 S4x4096 S4096x4096 where
  lhsContracting := [1]
  rhsContracting := [0]
  lhsNonContracting := [0]
  rhsNonContracting := [1]
  lhsBatch := []
  rhsBatch := []
  wf := dot_S4096x4_S4x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one grid point's body leaves behind, as values.

  The kernel keeps a running block of the product x·b in a scratch buffer. At the first point of a run along the contracted
  axis it stores the zero block and then adds the point's partial product to it; at the middle points it adds the point's
  partial product to what the point before left; at the last point it does the same and then writes the output block from the
  residual terms and the finished accumulator. Each of these is one whole-block store, so what the buffer holds afterwards is
  that store's value: the accumulate step (or the output step) applied to the blocks the point was given, and to what the
  scratch held — the zero block at a run's first point, the finished accumulator when the output is formed.
-/
import proofs.«117098_j9680856285215_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- First point of a run along the contracted axis: the scratch ends at the accumulate step over the ZERO block — the
    reset's store is read back by the load that follows it. -/
theorem scratch_first (c : Dev nD) (i : grid0.Coords) (arg3 : Memref sig .tc .vmem S512x512 .f32) (harg3 : arg3.IsWhole) (arg4 : Memref sig .tc .vmem S512x1024 .bf16) (harg4 : arg4.IsWhole) (arg5 : Memref sig .tc .vmem S1024x512 .bf16) (harg5 : arg5.IsWhole) (arg6 : Memref sig .tc .vmem S1x512 .f32) (harg6 : arg6.IsWhole) (arg7 : Memref sig .tc .vmem S4x512 .bf16) (harg7 : arg7.IsWhole) (arg8 : Memref sig .tc .vmem S512x4 .bf16) (harg8 : arg8.IsWhole) (arg9 : Memref sig .tc .vmem S512x512 .f32) (harg9 : arg9.IsWhole) (arg10 : Memref sig .tc .vmem S512x512 .f32) (harg10 : arg10.IsWhole) (hc0 : cond0_0 i) (hc1 : ¬cond0_1 i)
    (x0 : Vec F S512x512 .f32) (x1 : Vec F S512x1024 .bf16) (x2 : Vec F S1024x512 .bf16) (x3 : Vec F S1x512 .f32) (x4 : Vec F S4x512 .bf16) (x5 : Vec F S512x4 .bf16) :
    sout0_A_0 c i arg3 harg3 arg4 harg4 arg5 harg5 arg6 harg6 arg7 harg7 arg8 harg8 arg9 harg9 arg10 harg10 hc0 hc1 x0 x1 x2 x3 x4 x5
      = k0_pay2 x1 x2 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x512) hz]
  simp only [View.readAt_eq_ld, harg3.read_unread, harg4.read_unread, harg5.read_unread, harg6.read_unread, harg7.read_unread, harg8.read_unread, harg10.read_unread, View.ld_unit_zero (S := S512x512) hz, View.ld_unit_zero (S := S512x1024) hz, View.ld_unit_zero (S := S1024x512) hz, View.ld_unit_zero (S := S1x512) hz, View.ld_unit_zero (S := S4x512) hz, View.ld_unit_zero (S := S512x4) hz, View.readCov_unit_zero (S := S512x512) _ hz]

/-- A middle point: the scratch ends at the accumulate step over what it held. -/
theorem scratch_middle (c : Dev nD) (i : grid0.Coords) (arg3 : Memref sig .tc .vmem S512x512 .f32) (harg3 : arg3.IsWhole) (arg4 : Memref sig .tc .vmem S512x1024 .bf16) (harg4 : arg4.IsWhole) (arg5 : Memref sig .tc .vmem S1024x512 .bf16) (harg5 : arg5.IsWhole) (arg6 : Memref sig .tc .vmem S1x512 .f32) (harg6 : arg6.IsWhole) (arg7 : Memref sig .tc .vmem S4x512 .bf16) (harg7 : arg7.IsWhole) (arg8 : Memref sig .tc .vmem S512x4 .bf16) (harg8 : arg8.IsWhole) (arg9 : Memref sig .tc .vmem S512x512 .f32) (harg9 : arg9.IsWhole) (arg10 : Memref sig .tc .vmem S512x512 .f32) (harg10 : arg10.IsWhole) (hc0 : ¬cond0_0 i) (hc1 : ¬cond0_1 i)
    (x0 : Vec F S512x512 .f32) (x1 : Vec F S512x1024 .bf16) (x2 : Vec F S1024x512 .bf16) (x3 : Vec F S1x512 .f32) (x4 : Vec F S4x512 .bf16) (x5 : Vec F S512x4 .bf16) (xs0 : Vec F S512x512 .f32) :
    sout0_B_0 c i arg3 harg3 arg4 harg4 arg5 harg5 arg6 harg6 arg7 harg7 arg8 harg8 arg9 harg9 arg10 harg10 hc0 hc1 x0 x1 x2 x3 x4 x5 xs0
      = k0_pay2 x1 x2 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz]
  simp only [View.readAt_eq_ld, harg3.read_unread, harg4.read_unread, harg5.read_unread, harg6.read_unread, harg7.read_unread, harg8.read_unread, harg10.read_unread, View.ld_unit_zero (S := S512x512) hz, View.ld_unit_zero (S := S512x1024) hz, View.ld_unit_zero (S := S1024x512) hz, View.ld_unit_zero (S := S1x512) hz, View.ld_unit_zero (S := S4x512) hz, View.ld_unit_zero (S := S512x4) hz]

/-- The last point of a run: the scratch ends at the accumulate step over what it held … -/
theorem scratch_last (c : Dev nD) (i : grid0.Coords) (arg3 : Memref sig .tc .vmem S512x512 .f32) (harg3 : arg3.IsWhole) (arg4 : Memref sig .tc .vmem S512x1024 .bf16) (harg4 : arg4.IsWhole) (arg5 : Memref sig .tc .vmem S1024x512 .bf16) (harg5 : arg5.IsWhole) (arg6 : Memref sig .tc .vmem S1x512 .f32) (harg6 : arg6.IsWhole) (arg7 : Memref sig .tc .vmem S4x512 .bf16) (harg7 : arg7.IsWhole) (arg8 : Memref sig .tc .vmem S512x4 .bf16) (harg8 : arg8.IsWhole) (arg9 : Memref sig .tc .vmem S512x512 .f32) (harg9 : arg9.IsWhole) (arg10 : Memref sig .tc .vmem S512x512 .f32) (harg10 : arg10.IsWhole) (hc0 : ¬cond0_0 i) (hc1 : cond0_1 i)
    (x0 : Vec F S512x512 .f32) (x1 : Vec F S512x1024 .bf16) (x2 : Vec F S1024x512 .bf16) (x3 : Vec F S1x512 .f32) (x4 : Vec F S4x512 .bf16) (x5 : Vec F S512x4 .bf16) (xs0 : Vec F S512x512 .f32) :
    sout0_C_0 c i arg3 harg3 arg4 harg4 arg5 harg5 arg6 harg6 arg7 harg7 arg8 harg8 arg9 harg9 arg10 harg10 hc0 hc1 x0 x1 x2 x3 x4 x5 xs0
      = k0_pay2 x1 x2 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, View.ld_unit_zero (S := S512x512) hz, View.ld_unit_zero (S := S512x1024) hz, View.ld_unit_zero (S := S1024x512) hz, View.ld_unit_zero (S := S1x512) hz, View.ld_unit_zero (S := S4x512) hz, View.ld_unit_zero (S := S512x4) hz]

/-- … and the output block is the output step over the h, a, (h·q) and pᵀ blocks and that finished accumulator, which the
    output step reads back from the scratch. -/
theorem out_last (c : Dev nD) (i : grid0.Coords) (arg3 : Memref sig .tc .vmem S512x512 .f32) (harg3 : arg3.IsWhole) (arg4 : Memref sig .tc .vmem S512x1024 .bf16) (harg4 : arg4.IsWhole) (arg5 : Memref sig .tc .vmem S1024x512 .bf16) (harg5 : arg5.IsWhole) (arg6 : Memref sig .tc .vmem S1x512 .f32) (harg6 : arg6.IsWhole) (arg7 : Memref sig .tc .vmem S4x512 .bf16) (harg7 : arg7.IsWhole) (arg8 : Memref sig .tc .vmem S512x4 .bf16) (harg8 : arg8.IsWhole) (arg9 : Memref sig .tc .vmem S512x512 .f32) (harg9 : arg9.IsWhole) (arg10 : Memref sig .tc .vmem S512x512 .f32) (harg10 : arg10.IsWhole) (hc0 : ¬cond0_0 i) (hc1 : cond0_1 i)
    (x0 : Vec F S512x512 .f32) (x1 : Vec F S512x1024 .bf16) (x2 : Vec F S1024x512 .bf16) (x3 : Vec F S1x512 .f32) (x4 : Vec F S4x512 .bf16) (x5 : Vec F S512x4 .bf16) (xs0 : Vec F S512x512 .f32) :
    out0_C_6 c i arg3 harg3 arg4 harg4 arg5 harg5 arg6 harg6 arg7 harg7 arg8 harg8 arg9 harg9 arg10 harg10 hc0 hc1 x0 x1 x2 x3 x4 x5 xs0
      = k0_pay3 x0 x3 x5 x4 (k0_pay2 x1 x2 xs0) := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, View.ld_unit_zero (S := S512x512) hz, View.ld_unit_zero (S := S512x1024) hz, View.ld_unit_zero (S := S1024x512) hz, View.ld_unit_zero (S := S1x512) hz, View.ld_unit_zero (S := S4x512) hz, View.ld_unit_zero (S := S512x4) hz, View.readCov_unit_zero (S := S512x512) _ hz]

end Cert.KernelIdeal.Pieces

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Payloads.lean ====
/-
  The kernel body's arithmetic, entry by entry, over the extended reals.

  The accumulate step adds to the accumulator the product of the point's x block (512×1024) and b block (1024×512):
  at (p, q) it is acc(p, q) + Σ_κ x(p, κ)·b(κ, q). The reset block is zero everywhere. The output step forms, at (p, q),
  (h + 1·(h·a + Σ_ρ hq(p, ρ)·pᵀ(ρ, q))) + 1·acc, the a block being one row spread over the 512 rows. A change of float
  format is the identity on extended reals, so the half-width blocks read as they are.
-/
import proofs.«117098_j9680856285215_1_alg».proof.Proof.Gen.KernelIdeal.Skeleton
import proofs.«117098_j9680856285215_1_alg».proof.Proof.LibPlainDot
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx Idealize.ShloMosaic.PlainDot

namespace Cert.KernelIdeal.Payloads

open Cert.KernelIdeal Cert.KernelIdeal.Gen

/-- The word of the float literal 1.0, read at the extended reals (never evaluated: both programs carry the same word). -/
abbrev one : EReal := Ideal.ofBits .f32 0x3F800000#32

/-- The x-block by b-block product contracts the x block's columns with the b block's rows. -/
theorem plain_xb : IsPlain dot_S512x1024_S1024x512_S512x512_1_0_0_1_n_n := ⟨rfl, rfl, rfl, rfl, rfl, rfl⟩

/-- So does the (h·q)-block by pᵀ-block product, over the four rank coordinates. -/
theorem plain_lowrank : IsPlain dot_S512x4_S4x512_S512x512_1_0_0_1_n_n := ⟨rfl, rfl, rfl, rfl, rfl, rfl⟩

/-- The reset block is zero at every entry. -/
theorem reset_apply (y : S512x512.Idx) : k0_pay1 (F := Ideal) y = 0 := by
  unfold k0_pay1
  rw [shapeCast_self]
  exact Ideal.ofBits_zero_f32

/-- The accumulate step at (p, q): the accumulator's entry plus the row-by-column product of the two blocks. -/
theorem accumulate_apply (x : Vec Ideal S512x1024 .bf16) (b : Vec Ideal S1024x512 .bf16) (acc : Vec Ideal S512x512 .f32)
    (p q : Fin 512) :
    k0_pay2 x b acc (ix2 p q) = acc (ix2 p q) + ∑ κ : Fin 1024, x (ix2 p κ) * b (ix2 κ q) := by
  unfold k0_pay2
  simp only [shapeCast_self]
  exact congrArg (acc (ix2 p q) + ·) (matmul_zero_plain _ plain_xb none x b p q)

/-- The output step at (p, q). -/
theorem output_apply (h : Vec Ideal S512x512 .f32) (a : Vec Ideal S1x512 .f32) (hq : Vec Ideal S512x4 .bf16)
    (pT : Vec Ideal S4x512 .bf16) (acc : Vec Ideal S512x512 .f32) (p q : Fin 512) :
    k0_pay3 h a hq pT acc (ix2 p q)
      = (h (ix2 p q) + one * (h (ix2 p q) * a (ix2 (0 : Fin 1) q) + ∑ ρ : Fin 4, hq (ix2 p ρ) * pT (ix2 ρ q)))
        + one * acc (ix2 p q) := by
  unfold k0_pay3
  simp only [shapeCast_self]
  show (h (ix2 p q) + one * (h (ix2 p q) * broadcastTo S512x512 a broadcasts_S1x512_S512x512 (ix2 p q)
      + FloatOps.matmul (F := Ideal) dot_S512x4_S4x512_S512x512_1_0_0_1_n_n none hq pT (constant (F := Ideal) S512x512 .f32 0x00000000#32) (ix2 p q)))
      + one * acc (ix2 p q) = _
  rw [broadcastTo_1b_ab_apply a broadcasts_S1x512_S512x512 p q, matmul_zero_plain _ plain_lowrank none hq pT p q]

end Cert.KernelIdeal.Payloads

end
-- ==== Proof.Blocks.lean ====
/-
  What the kernel's windows read, in terms of the arguments.

  Before the kernel runs, the host forms h·q (4096×4), the transpose of p (4×4096), a as one row (1×4096), and half-width
  copies of x, b, h·q and pᵀ; over the extended reals a change of float format is the identity, so the arrays the kernel's
  windows are cut from are x, b, h·q, pᵀ and the row a themselves, and h is passed as it is.
  The grid is 8 × 8 × 4, the contracted axis innermost: point t is block-row t / 32, block-column (t / 4) mod 8 and
  contraction step t mod 4. At point t the h and output blocks are rows t/32·512 + p and columns (t/4 mod 8)·512 + q; the
  x block the same rows and columns (t mod 4)·1024 + κ; the b block rows (t mod 4)·1024 + κ and the same output columns; the
  a and pᵀ blocks those output columns; the h·q block those rows.
-/
import proofs.«117098_j9680856285215_1_alg».proof.Proof.Gen.KernelIdeal.Frame
import proofs.«117098_j9680856285215_1_alg».proof.Proof.LibPlainDot
import Idealize.ShloMosaic.Lib.Pipeline.Value
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx Idealize.ShloMosaic.PlainDot

namespace Cert.KernelIdeal.Blocks

open Cert.KernelIdeal Cert.KernelIdeal.Gen

variable (m : (ℓ : Loc nD τ sig) → Buf (Elt Ideal) ℓ)

/-! ## The arguments, by name -/

abbrev argH (c : Dev nD) : Vec Ideal S4096x4096 .f32 := m ((c : Thread nD τ).loc main_arg0)
abbrev argX (c : Dev nD) : Vec Ideal S4096x4096 .f32 := m ((c : Thread nD τ).loc main_arg1)
abbrev argA (c : Dev nD) : Vec Ideal S4096 .f32 := m ((c : Thread nD τ).loc main_arg2)
abbrev argP (c : Dev nD) : Vec Ideal S4096x4 .f32 := m ((c : Thread nD τ).loc main_arg3)
abbrev argQ (c : Dev nD) : Vec Ideal S4096x4 .f32 := m ((c : Thread nD τ).loc main_arg4)
abbrev argB (c : Dev nD) : Vec Ideal S4096x4096 .f32 := m ((c : Thread nD τ).loc main_arg5)

/-! ## The arrays the windows are cut from -/

/-- h reaches the kernel untouched. -/
theorem entry_h (c : Dev nD) : (V m c main_arg0 : S4096x4096.Idx → EReal) = argH m c := V_main_arg0 m c

/-- The half-width copy of x is x. -/
theorem entry_x (c : Dev nD) : (V m c main_v1 : S4096x4096.Idx → EReal) = argX m c := by
  dsimp only [Gen.V, Gen.hostOps0]; after_results; rfl

/-- The half-width copy of b is b. -/
theorem entry_b (c : Dev nD) : (V m c main_v2 : S4096x4096.Idx → EReal) = argB m c := by
  dsimp only [Gen.V, Gen.hostOps0]; after_results; rfl

/-- The half-width copy of h·q is the host's product of h and q. -/
theorem entry_hq (c : Dev nD) : (V m c main_v3 : S4096x4.Idx → EReal)
    = Host.dotGeneral (F := Ideal) (φ₁ := .f32) (φ₂ := .f32) dot_S4096x4096_S4096x4_S4096x4_1_0_0_1_n_n none (argH m c) (argQ m c) := by
  dsimp only [Gen.V, Gen.hostOps0]; after_results; rfl

/-- The half-width copy of pᵀ is the transpose of p. -/
theorem entry_pT (c : Dev nD) : (V m c main_v5 : S4x4096.Idx → EReal)
    = transpose S4x4096 [1, 0] (argP m c) transposes_S4096x4_S4x4096_1_0 := by
  dsimp only [Gen.V, Gen.hostOps0]; after_results; rfl

/-- The row form of a is a with a unit axis in front. -/
theorem entry_a (c : Dev nD) : (V m c main_v6 : S1x4096.Idx → EReal)
    = shapeCast S1x4096 (argA m c) shapeCasts_S4096_S1x4096 := by
  dsimp only [Gen.V, Gen.hostOps0]; after_results; rfl

/-! ## Those arrays at an index -/

/-- The host's h·q contracts h's columns with q's rows. -/
theorem plain_hq : IsPlain dot_S4096x4096_S4096x4_S4096x4_1_0_0_1_n_n := ⟨rfl, rfl, rfl, rfl, rfl, rfl⟩

/-- (h·q)(r, ρ) = Σ_n h(r, n)·q(n, ρ). -/
theorem hq_apply (c : Dev nD) (r : Fin 4096) (ρ : Fin 4) :
    (V m c main_v3 : S4096x4.Idx → EReal) (ix2 r ρ) = ∑ n : Fin 4096, argH m c (ix2 r n) * argQ m c (ix2 n ρ) :=
  (congrFun (entry_hq m c) (ix2 r ρ)).trans
    (dotGeneral_plain (φ₁ := .f32) (φ₂ := .f32) _ plain_hq none HostSchedule.single (argH m c) (argQ m c) r ρ)

/-- pᵀ(ρ, s) = p(s, ρ). -/
theorem pT_apply (c : Dev nD) (ρ : Fin 4) (s : Fin 4096) :
    (V m c main_v5 : S4x4096.Idx → EReal) (ix2 ρ s) = argP m c (ix2 s ρ) :=
  (congrFun (entry_pT m c) (ix2 ρ s)).trans
    (transpose_apply [1, 0] (argP m c) transposes_S4096x4_S4x4096_1_0 (ix2 ρ s) (ix2 s ρ) (fun b => match b with
      | ⟨0, _⟩ => rfl
      | ⟨1, _⟩ => rfl))

/-- The row form of a at (0, s) is a(s). -/
theorem a_apply (c : Dev nD) (s : Fin 4096) :
    (V m c main_v6 : S1x4096.Idx → EReal) (ix2 (0 : Fin 1) s) = argA m c (ix1 s) :=
  (congrFun (entry_a m c) (ix2 (0 : Fin 1) s)).trans
    (shapeCast_a_1a_apply (argA m c) shapeCasts_S4096_S1x4096 (0 : Fin 1) s)

/-! ## The index maps as arithmetic in the point -/

/-- Each window's block index at point t, decided over the 256 points. -/
theorem idx_facts : ∀ t : Fin cfg0.N,
    win0_0.index t (0 : Fin 2) = t.val / 32 ∧ win0_0.index t (1 : Fin 2) = t.val / 4 % 8
  ∧ win0_1.index t (0 : Fin 2) = t.val / 32 ∧ win0_1.index t (1 : Fin 2) = t.val % 4
  ∧ win0_2.index t (0 : Fin 2) = t.val % 4 ∧ win0_2.index t (1 : Fin 2) = t.val / 4 % 8
  ∧ win0_3.index t (0 : Fin 2) = 0 ∧ win0_3.index t (1 : Fin 2) = t.val / 4 % 8
  ∧ win0_4.index t (0 : Fin 2) = 0 ∧ win0_4.index t (1 : Fin 2) = t.val / 4 % 8
  ∧ win0_5.index t (0 : Fin 2) = t.val / 32 ∧ win0_5.index t (1 : Fin 2) = 0
  ∧ win0_6.index t (0 : Fin 2) = t.val / 32 ∧ win0_6.index t (1 : Fin 2) = t.val / 4 % 8 :=
  (by decide +kernel : ∀ t : Fin grid0.N, _)

/-! ## The blocks at an entry

Each lemma takes the array coordinates as free variables with their defining equations, so that it can be used at whatever
spelling of the coordinates the caller has. -/

/-- The h block at (p, q) is h at row t/32·512 + p, column (t/4 mod 8)·512 + q. -/
theorem hblk_apply (c : Dev nD) (t : Fin cfg0.N) (p q : Fin 512) (r s : Fin 4096)
    (hr : r.val = t.val / 32 * 512 + p.val) (hs : s.val = t.val / 4 % 8 * 512 + q.val) :
    (iblk m c 0 t : Vec Ideal S512x512 .f32) (ix2 p q) = argH m c (ix2 r s) := by
  obtain ⟨e0, e1, -⟩ := idx_facts t
  unfold iblk
  rw [View.read_apply]
  show V m c main_arg0 (((cfg0.win 0).blk t).view.emb (ix2 p q)) = _
  refine (congrFun (entry_h m c) _).trans (congrArg (argH m c) (funext fun a => Fin.ext ?_))
  match a with
  | ⟨0, _⟩ => show win0_0.index t (0 : Fin 2) * 512 + 1 * p.val = r.val; rw [e0, hr]; omega
  | ⟨1, _⟩ => show win0_0.index t (1 : Fin 2) * 512 + 1 * q.val = s.val; rw [e1, hs]; omega

/-- The x block at (p, κ) is x at row t/32·512 + p, column (t mod 4)·1024 + κ. -/
theorem xblk_apply (c : Dev nD) (t : Fin cfg0.N) (p : Fin 512) (κ : Fin 1024) (r k : Fin 4096)
    (hr : r.val = t.val / 32 * 512 + p.val) (hk : k.val = t.val % 4 * 1024 + κ.val) :
    (iblk m c 1 t : Vec Ideal S512x1024 .bf16) (ix2 p κ) = argX m c (ix2 r k) := by
  obtain ⟨-, -, e0, e1, -⟩ := idx_facts t
  unfold iblk
  rw [View.read_apply]
  show V m c main_v1 (((cfg0.win 1).blk t).view.emb (ix2 p κ)) = _
  refine (congrFun (entry_x m c) _).trans (congrArg (argX m c) (funext fun a => Fin.ext ?_))
  match a with
  | ⟨0, _⟩ => show win0_1.index t (0 : Fin 2) * 512 + 1 * p.val = r.val; rw [e0, hr]; omega
  | ⟨1, _⟩ => show win0_1.index t (1 : Fin 2) * 1024 + 1 * κ.val = k.val; rw [e1, hk]; omega

/-- The b block at (κ, q) is b at row (t mod 4)·1024 + κ, column (t/4 mod 8)·512 + q. -/
theorem bblk_apply (c : Dev nD) (t : Fin cfg0.N) (κ : Fin 1024) (q : Fin 512) (k s : Fin 4096)
    (hk : k.val = t.val % 4 * 1024 + κ.val) (hs : s.val = t.val / 4 % 8 * 512 + q.val) :
    (iblk m c 2 t : Vec Ideal S1024x512 .bf16) (ix2 κ q) = argB m c (ix2 k s) := by
  obtain ⟨-, -, -, -, e0, e1, -⟩ := idx_facts t
  unfold iblk
  rw [View.read_apply]
  show V m c main_v2 (((cfg0.win 2).blk t).view.emb (ix2 κ q)) = _
  refine (congrFun (entry_b m c) _).trans (congrArg (argB m c) (funext fun a => Fin.ext ?_))
  match a with
  | ⟨0, _⟩ => show win0_2.index t (0 : Fin 2) * 1024 + 1 * κ.val = k.val; rw [e0, hk]; omega
  | ⟨1, _⟩ => show win0_2.index t (1 : Fin 2) * 512 + 1 * q.val = s.val; rw [e1, hs]; omega

/-- The a block's one row at q is a at (t/4 mod 8)·512 + q. -/
theorem ablk_apply (c : Dev nD) (t : Fin cfg0.N) (q : Fin 512) (s : Fin 4096)
    (hs : s.val = t.val / 4 % 8 * 512 + q.val) :
    (iblk m c 3 t : Vec Ideal S1x512 .f32) (ix2 (0 : Fin 1) q) = argA m c (ix1 s) := by
  obtain ⟨-, -, -, -, -, -, e0, e1, -⟩ := idx_facts t
  unfold iblk
  rw [View.read_apply]
  show V m c main_v6 (((cfg0.win 3).blk t).view.emb (ix2 (0 : Fin 1) q)) = _
  refine Eq.trans (congrArg (V m c main_v6 : S1x4096.Idx → EReal) (funext fun a => Fin.ext ?_)) (a_apply m c s)
  match a with
  | ⟨0, _⟩ => show win0_3.index t (0 : Fin 2) * 1 + 1 * 0 = 0; rw [e0]
  | ⟨1, _⟩ => show win0_3.index t (1 : Fin 2) * 512 + 1 * q.val = s.val; rw [e1, hs]; omega

/-- The pᵀ block at (ρ, q) is p at row (t/4 mod 8)·512 + q, column ρ. -/
theorem pTblk_apply (c : Dev nD) (t : Fin cfg0.N) (ρ : Fin 4) (q : Fin 512) (s : Fin 4096)
    (hs : s.val = t.val / 4 % 8 * 512 + q.val) :
    (iblk m c 4 t : Vec Ideal S4x512 .bf16) (ix2 ρ q) = argP m c (ix2 s ρ) := by
  obtain ⟨-, -, -, -, -, -, -, -, e0, e1, -⟩ := idx_facts t
  unfold iblk
  rw [View.read_apply]
  show V m c main_v5 (((cfg0.win 4).blk t).view.emb (ix2 ρ q)) = _
  refine Eq.trans (congrArg (V m c main_v5 : S4x4096.Idx → EReal) (funext fun a => Fin.ext ?_)) (pT_apply m c ρ s)
  match a with
  | ⟨0, _⟩ => show win0_4.index t (0 : Fin 2) * 4 + 1 * ρ.val = ρ.val; rw [e0]; omega
  | ⟨1, _⟩ => show win0_4.index t (1 : Fin 2) * 512 + 1 * q.val = s.val; rw [e1, hs]; omega

/-- The h·q block at (p, ρ) is Σ_n h(r, n)·q(n, ρ) at row r = t/32·512 + p. -/
theorem hqblk_apply (c : Dev nD) (t : Fin cfg0.N) (p : Fin 512) (ρ : Fin 4) (r : Fin 4096)
    (hr : r.val = t.val / 32 * 512 + p.val) :
    (iblk m c 5 t : Vec Ideal S512x4 .bf16) (ix2 p ρ) = ∑ n : Fin 4096, argH m c (ix2 r n) * argQ m c (ix2 n ρ) := by
  obtain ⟨-, -, -, -, -, -, -, -, -, -, e0, e1, -⟩ := idx_facts t
  unfold iblk
  rw [View.read_apply]
  show V m c main_v3 (((cfg0.win 5).blk t).view.emb (ix2 p ρ)) = _
  refine Eq.trans (congrArg (V m c main_v3 : S4096x4.Idx → EReal) (funext fun a => Fin.ext ?_)) (hq_apply m c r ρ)
  match a with
  | ⟨0, _⟩ => show win0_5.index t (0 : Fin 2) * 512 + 1 * p.val = r.val; rw [e0, hr]; omega
  | ⟨1, _⟩ => show win0_5.index t (1 : Fin 2) * 4 + 1 * ρ.val = ρ.val; rw [e1]; omega

end Cert.KernelIdeal.Blocks

end
-- ==== Proof.BlockSum.lean ====
/-
  A sum over a contracted index, cut into consecutive blocks.

  A kernel that accumulates a matrix product over blocks of the contracted axis adds, block after block, the products whose
  contracted coordinate lies in that block. To say what the accumulator holds after some of the blocks, the products of one
  output entry are laid out as a sequence over the naturals (zero past the axis's end), so that "the first n products" is a sum
  over a range: the whole sum is the range up to the axis's extent, and a range grows by one block at a time.
  Only commutativity and associativity of addition are used, so the statements hold in any commutative additive monoid — the
  extended reals among them, where no finiteness is needed.
-/
import Idealize.ShloMosaic.Lib.ValueIdx

open scoped BigOperators

namespace Cert.BlockSum

variable {M : Type*} [AddCommMonoid M]

/-- A family over `Fin K` as a sequence over the naturals: its value below `K`, zero from `K` on. -/
def seqOf {K : ℕ} (f : Fin K → M) (n : ℕ) : M := if h : n < K then f ⟨n, h⟩ else 0

/-- Below the extent the sequence is the family. -/
theorem seqOf_lt {K : ℕ} (f : Fin K → M) (n : ℕ) (h : n < K) : seqOf f n = f ⟨n, h⟩ := dif_pos h

/-- The whole sum is the sum of the sequence's first `K` terms. -/
theorem sum_univ_eq_range {K : ℕ} (f : Fin K → M) : ∑ κ : Fin K, f κ = ∑ n ∈ Finset.range K, seqOf f n := by
  rw [← Fin.sum_univ_eq_sum_range (seqOf f) K]
  exact Finset.sum_congr rfl fun κ _ => (seqOf_lt f κ.val κ.isLt).symm

/-- The first `a + w` terms are the first `a` terms and then one block of `w` terms starting at `a`. -/
theorem range_add_block {K : ℕ} (f : Fin K → M) (a w : ℕ) (h : a + w ≤ K) :
    ∑ n ∈ Finset.range (a + w), seqOf f n
      = ∑ n ∈ Finset.range a, seqOf f n + ∑ j : Fin w, f ⟨a + j.val, Nat.lt_of_lt_of_le (Nat.add_lt_add_left j.isLt a) h⟩ := by
  rw [Finset.sum_range_add, ← Fin.sum_univ_eq_sum_range (fun j => seqOf f (a + j)) w]
  congr 1
  exact Finset.sum_congr rfl fun j _ => seqOf_lt f _ _

/-- The first block alone: the first `w` terms are the block starting at zero. -/
theorem range_first_block {K : ℕ} (f : Fin K → M) (w : ℕ) (h : w ≤ K) :
    ∑ n ∈ Finset.range w, seqOf f n = ∑ j : Fin w, f ⟨j.val, Nat.lt_of_lt_of_le j.isLt h⟩ := by
  rw [← Fin.sum_univ_eq_sum_range (seqOf f) w]
  exact Finset.sum_congr rfl fun j _ => seqOf_lt f _ _

end Cert.BlockSum
-- ==== Proof.Spec.lean ====
/-
  The function both programs compute.

  For h, x, b of 4096×4096, a of 4096 and p, q of 4096×4, the result at (r, s) is

      (h(r,s) + 1·(h(r,s)·a(s) + Σ_ρ (Σ_n h(r,n)·q(n,ρ))·p(s,ρ))) + 1·Σ_κ x(r,κ)·b(κ,s)

  over the extended reals — the diagonal-plus-rank-4 update of h and the product x·b, with the step size 1 kept as the float
  literal both programs carry. The grouping of the additions and products is the one both programs print; no law of the
  extended reals beyond that grouping is built into the statement.
-/
import Idealize.ShloMosaic.PureOps.Ideal
import Idealize.ShloMosaic.Lib.ValueIdx

noncomputable section

open scoped BigOperators
open Idealize.ShloMosaic Idealize.ShloMosaic.ValueIdx

namespace Cert.Spec

/-- The float literal 1.0 read at the extended reals. -/
abbrev one : EReal := Ideal.ofBits .f32 0x3F800000#32

/-- One entry of the result. -/
def entry (h x b : (⟨2, ![4096, 4096]⟩ : Shape).Idx → EReal) (a : (⟨1, ![4096]⟩ : Shape).Idx → EReal)
    (p q : (⟨2, ![4096, 4]⟩ : Shape).Idx → EReal) (r s : Fin 4096) : EReal :=
  (h (ix2 r s) + one * (h (ix2 r s) * a (ix1 s) + ∑ ρ : Fin 4, (∑ n : Fin 4096, h (ix2 r n) * q (ix2 n ρ)) * p (ix2 s ρ)))
    + one * ∑ κ : Fin 4096, x (ix2 r κ) * b (ix2 κ s)

/-- The result array. -/
def result (h x b : (⟨2, ![4096, 4096]⟩ : Shape).Idx → EReal) (a : (⟨1, ![4096]⟩ : Shape).Idx → EReal)
    (p q : (⟨2, ![4096, 4]⟩ : Shape).Idx → EReal) : (⟨2, ![4096, 4096]⟩ : Shape).Idx → EReal :=
  fun i => entry h x b a p q (i 0) (i 1)

/-- The result at coordinates. -/
theorem result_apply (h x b : (⟨2, ![4096, 4096]⟩ : Shape).Idx → EReal) (a : (⟨1, ![4096]⟩ : Shape).Idx → EReal)
    (p q : (⟨2, ![4096, 4]⟩ : Shape).Idx → EReal) (r s : Fin 4096) :
    result h x b a p q (ix2 r s) = entry h x b a p q r s := rfl

end Cert.Spec

end
-- ==== Proof.KernelValue.lean ====
/-
  What the kernel's result array holds: the specified function of the arguments.

  Along a run of four points that share an output block, the scratch accumulator is zeroed at the first point and gains one
  1024-wide slice of the product x·b per point. By induction on the point, after point n the accumulator's entry (p, q) is the
  sum of the first (n mod 4 + 1)·1024 products x(r, κ)·b(κ, s) of the output entry (r, s) it belongs to — r and s do not change
  inside a run, and the zero the run starts from is absorbed. After the run's last point that is the whole sum over κ, and the
  output step combines it with h, a and the rank-4 term into the specified entry. Only the last point of each run writes its
  block back; those 64 blocks tile the 4096×4096 result.
-/
import proofs.«117098_j9680856285215_1_alg».proof.Proof.Gen.KernelIdeal.Value
import proofs.«117098_j9680856285215_1_alg».proof.Proof.Pieces
import proofs.«117098_j9680856285215_1_alg».proof.Proof.Payloads
import proofs.«117098_j9680856285215_1_alg».proof.Proof.Blocks
import proofs.«117098_j9680856285215_1_alg».proof.Proof.BlockSum
import proofs.«117098_j9680856285215_1_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Blocks Cert.KernelIdeal.Pieces Cert.KernelIdeal.Payloads Cert.BlockSum

variable (m : (ℓ : Loc nD τ sig) → Buf (Elt Ideal) ℓ) (ρ : Dev nD → PrngReg)

/-- The grid has 256 points. -/
theorem N256 : cfg0.N = 256 := N_0

/-- The result row of block-row t / 32 at local row p. -/
abbrev rowAt (t : Fin cfg0.N) (p : Fin 512) : Fin 4096 :=
  ⟨t.val / 32 * 512 + p.val, by have h := lt_of_lt_of_eq t.isLt N256; have := p.isLt; omega⟩

/-- The result column of block-column (t / 4) mod 8 at local column q. -/
abbrev colAt (t : Fin cfg0.N) (q : Fin 512) : Fin 4096 :=
  ⟨t.val / 4 % 8 * 512 + q.val, by have := q.isLt; omega⟩

/-- The contracted coordinate of step t mod 4 at local position κ. -/
abbrev depthAt (t : Fin cfg0.N) (κ : Fin 1024) : Fin 4096 :=
  ⟨t.val % 4 * 1024 + κ.val, by have := κ.isLt; omega⟩

/-- The products of result entry (r, s), over the contracted coordinate. -/
abbrev prods (c : Dev nD) (r s : Fin 4096) : Fin 4096 → EReal := fun κ => argX m c (ix2 r κ) * argB m c (ix2 κ s)

/-- The point's blocks, by their literal shapes. -/
abbrev hblk (c : Dev nD) (t : Fin cfg0.N) : Vec Ideal S512x512 .f32 := iblk m c 0 t
abbrev xblk (c : Dev nD) (t : Fin cfg0.N) : Vec Ideal S512x1024 .bf16 := iblk m c 1 t
abbrev bblk (c : Dev nD) (t : Fin cfg0.N) : Vec Ideal S1024x512 .bf16 := iblk m c 2 t
abbrev ablk (c : Dev nD) (t : Fin cfg0.N) : Vec Ideal S1x512 .f32 := iblk m c 3 t
abbrev pTblk (c : Dev nD) (t : Fin cfg0.N) : Vec Ideal S4x512 .bf16 := iblk m c 4 t
abbrev hqblk (c : Dev nD) (t : Fin cfg0.N) : Vec Ideal S512x4 .bf16 := iblk m c 5 t

/-! ## The scratch after a point, by the point's place in its run -/

/-- After a run's first point the scratch is the accumulate step over the zero block. -/
theorem scratch_at_first (c : Dev nD) (t : Fin cfg0.N) (h0 : t.val % 4 = 0) (h1 : ¬t.val % 4 = 3) :
    (outsAt0 m c t.val t.isLt).2 = k0_pay2 (xblk m c t) (bblk m c t) (k0_pay1 (F := Ideal)) := by
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- After any later point it is the accumulate step over what the point before left. -/
theorem scratch_at_next (c : Dev nD) (t : Fin cfg0.N) (h0 : ¬t.val % 4 = 0) :
    (outsAt0 m c t.val t.isLt).2 = k0_pay2 (xblk m c t) (bblk m c t) (outsAt0 m c (t.val - 1) (Nat.lt_of_le_of_lt (Nat.sub_le _ _) t.isLt)).2 := by
  by_cases h1 : t.val % 4 = 3
  · rw [outsAt0_C m c t h0 h1]
    dsimp only
    exact scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2
  · rw [outsAt0_B m c t h0 h1]
    dsimp only
    exact scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- After a run's last point the output block is the output step over the point's blocks and the scratch as that point
    leaves it. -/
theorem out_at_last (c : Dev nD) (t : Fin cfg0.N) (h0 : ¬t.val % 4 = 0) (h1 : t.val % 4 = 3) :
    (outsAt0 m c t.val t.isLt).1 = k0_pay3 (hblk m c t) (ablk m c t) (hqblk m c t) (pTblk m c t) (outsAt0 m c t.val t.isLt).2 := by
  rw [outsAt0_C m c t h0 h1]
  dsimp only
  rw [scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2]
  exact out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-! ## One accumulate step, in the result's coordinates -/

/-- The accumulate step at point t adds to the accumulator's entry the products of the point's 1024-wide slice. -/
theorem step_apply (c : Dev nD) (t : Fin cfg0.N) (acc : Vec Ideal S512x512 .f32) (p q : Fin 512) :
    k0_pay2 (xblk m c t) (bblk m c t) acc (ix2 p q)
      = acc (ix2 p q) + ∑ κ : Fin 1024, prods m c (rowAt t p) (colAt t q) (depthAt t κ) := by
  refine (accumulate_apply (xblk m c t) (bblk m c t) acc p q).trans ?_
  refine congrArg (acc (ix2 p q) + ·) (Finset.sum_congr rfl fun κ _ => ?_)
  exact congrArg₂ (· * ·) (xblk_apply m c t p κ (rowAt t p) (depthAt t κ) rfl rfl)
    (bblk_apply m c t κ q (depthAt t κ) (colAt t q) rfl rfl)

/-- A run's first step, from the zero block: the first 1024 products. -/
theorem first_step (c : Dev nD) (t : Fin cfg0.N) (h0 : t.val % 4 = 0) (p q : Fin 512) :
    k0_pay2 (xblk m c t) (bblk m c t) (k0_pay1 (F := Ideal)) (ix2 p q)
      = ∑ j ∈ Finset.range ((t.val % 4 + 1) * 1024), seqOf (prods m c (rowAt t p) (colAt t q)) j := by
  rw [step_apply, reset_apply, zero_add, show (t.val % 4 + 1) * 1024 = 1024 from by omega,
    range_first_block (prods m c (rowAt t p) (colAt t q)) 1024 (by decide)]
  refine Finset.sum_congr rfl fun κ _ => congrArg (prods m c (rowAt t p) (colAt t q)) (Fin.ext ?_)
  show t.val % 4 * 1024 + κ.val = κ.val
  omega

/-- A later step: the products so far and then the step's 1024. -/
theorem next_step (c : Dev nD) (t : Fin cfg0.N) (acc : Vec Ideal S512x512 .f32) (p q : Fin 512)
    (hacc : acc (ix2 p q) = ∑ j ∈ Finset.range (t.val % 4 * 1024), seqOf (prods m c (rowAt t p) (colAt t q)) j) :
    k0_pay2 (xblk m c t) (bblk m c t) acc (ix2 p q)
      = ∑ j ∈ Finset.range ((t.val % 4 + 1) * 1024), seqOf (prods m c (rowAt t p) (colAt t q)) j := by
  rw [step_apply, hacc, show (t.val % 4 + 1) * 1024 = t.val % 4 * 1024 + 1024 from by omega,
    range_add_block (prods m c (rowAt t p) (colAt t q)) (t.val % 4 * 1024) 1024 (by omega)]

/-! ## The accumulator after every point -/

/-- After point n the accumulator's entry (p, q) is the sum of the first (n mod 4 + 1)·1024 products of its result entry. -/
theorem scratch_eq (c : Dev nD) : ∀ (n : ℕ) (hn : n < cfg0.N) (p q : Fin 512),
    (outsAt0 m c n hn).2 (ix2 p q)
      = ∑ j ∈ Finset.range ((n % 4 + 1) * 1024), seqOf (prods m c (rowAt ⟨n, hn⟩ p) (colAt ⟨n, hn⟩ q)) j := by
  intro n
  induction n with
  | zero =>
    intro hn p q
    exact (congrFun (scratch_at_first m c ⟨0, hn⟩ rfl (by show ¬(0 % 4 = 3); decide)) (ix2 p q)).trans (first_step m c ⟨0, hn⟩ rfl p q)
  | succ n ih =>
    intro hn p q
    have hN : n + 1 < 256 := lt_of_lt_of_eq hn N256
    by_cases h0 : (n + 1) % 4 = 0
    · exact (congrFun (scratch_at_first m c ⟨n + 1, hn⟩ h0 (by show ¬((n + 1) % 4 = 3); omega)) (ix2 p q)).trans (first_step m c ⟨n + 1, hn⟩ h0 p q)
    · refine (congrFun (scratch_at_next m c ⟨n + 1, hn⟩ h0) (ix2 p q)).trans ?_
      refine next_step m c ⟨n + 1, hn⟩ _ p q ?_
      have e := ih (Nat.lt_of_succ_lt hn) p q
      have er : rowAt ⟨n, Nat.lt_of_succ_lt hn⟩ p = rowAt ⟨n + 1, hn⟩ p := Fin.ext (by
        show n / 32 * 512 + p.val = (n + 1) / 32 * 512 + p.val; omega)
      have ec : colAt ⟨n, Nat.lt_of_succ_lt hn⟩ q = colAt ⟨n + 1, hn⟩ q := Fin.ext (by
        show n / 4 % 8 * 512 + q.val = (n + 1) / 4 % 8 * 512 + q.val; omega)
      have ek : (n % 4 + 1) * 1024 = (n + 1) % 4 * 1024 := by omega
      rw [er, ec, ek] at e
      exact e

/-! ## The output block at a run's last point -/

/-- At the last point of a run the output block's entry (p, q) is the specified entry at its row and column. -/
theorem out_entry (c : Dev nD) (t : Fin cfg0.N) (h0 : ¬t.val % 4 = 0) (h1 : t.val % 4 = 3) (p q : Fin 512) :
    (outsAt0 m c t.val t.isLt).1 (ix2 p q)
      = Cert.Spec.entry (argH m c) (argX m c) (argB m c) (argA m c) (argP m c) (argQ m c) (rowAt t p) (colAt t q) := by
  have eh : hblk m c t (ix2 p q) = argH m c (ix2 (rowAt t p) (colAt t q)) := hblk_apply m c t p q _ _ rfl rfl
  have ea : ablk m c t (ix2 (0 : Fin 1) q) = argA m c (ix1 (colAt t q)) := ablk_apply m c t q _ rfl
  have el : ∑ ρ : Fin 4, hqblk m c t (ix2 p ρ) * pTblk m c t (ix2 ρ q)
      = ∑ ρ : Fin 4, (∑ n : Fin 4096, argH m c (ix2 (rowAt t p) n) * argQ m c (ix2 n ρ)) * argP m c (ix2 (colAt t q) ρ) :=
    Finset.sum_congr rfl fun ρ _ =>
      congrArg₂ (· * ·) (hqblk_apply m c t p ρ (rowAt t p) rfl) (pTblk_apply m c t ρ q (colAt t q) rfl)
  have es : (outsAt0 m c t.val t.isLt).2 (ix2 p q) = ∑ κ : Fin 4096, argX m c (ix2 (rowAt t p) κ) * argB m c (ix2 κ (colAt t q)) := by
    rw [scratch_eq m c t.val t.isLt p q, h1]
    exact (sum_univ_eq_range (prods m c (rowAt t p) (colAt t q))).symm
  refine (congrFun (out_at_last m c t h0 h1) (ix2 p q)).trans ?_
  refine (output_apply (hblk m c t) (ablk m c t) (hqblk m c t) (pTblk m c t) (outsAt0 m c t.val t.isLt).2 p q).trans ?_
  unfold Cert.Spec.entry
  rw [eh, ea, el, es]

/-! ## From blocks to the array -/

/-- The specified result of this memory's arguments. -/
abbrev spec (c : Dev nD) : S4096x4096.Idx → EReal :=
  Cert.Spec.result (argH m c) (argX m c) (argB m c) (argA m c) (argP m c) (argQ m c)

/-- What a writing point writes back is its block of the specified result. -/
theorem flushed_eq (c : Dev nD) (t : Fin cfg0.N) (hf : (cfg0.win 6).flush t = true) :
    (dats m 0 c).flushed 6 t = ((cfg0.win 6).blk t).view.read (Elt Ideal) (spec m c) := by
  have h1 : t.val % 4 = 3 := (flush0_6 t).mp hf
  have h0 : ¬t.val % 4 = 0 := by omega
  obtain ⟨-, -, -, -, -, -, -, -, -, -, -, -, e0, e1⟩ := idx_facts t
  rw [Cert.KernelIdeal.Value.flushed6]
  funext j
  have hp : (j 0).val < 512 := (j 0).isLt
  have hq : (j 1).val < 512 := (j 1).isLt
  show (outsAt0 m c t.val t.isLt).1 j = spec m c (((cfg0.win 6).blk t).view.emb j)
  have ej : (((cfg0.win 6).blk t).view.emb j) = ix2 (rowAt t ⟨(j 0).val, hp⟩) (colAt t ⟨(j 1).val, hq⟩) := funext fun a => Fin.ext (by
    match a with
    | ⟨0, _⟩ => show win0_6.index t (0 : Fin 2) * 512 + 1 * (j 0).val = t.val / 32 * 512 + (j 0).val; rw [e0]; omega
    | ⟨1, _⟩ => show win0_6.index t (1 : Fin 2) * 512 + 1 * (j 1).val = t.val / 4 % 8 * 512 + (j 1).val; rw [e1]; omega)
  rw [ej]
  exact (congrArg (outsAt0 m c t.val t.isLt).1 (eq_ix2 j)).trans (out_entry m c t h0 h1 ⟨(j 0).val, hp⟩ ⟨(j 1).val, hq⟩)

/-- An index of the result is in point t's block iff each coordinate is in the block's range. -/
theorem mem_blk (t : Fin cfg0.N) (i : S4096x4096.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v7).slice (win0_6.rect t)).set ↔ _
  rw [View.set_slice_whole, Rect.mem_set_unit]
  exact Iff.rfl

/-- Every index of the result lies in the block of the last point of its run. -/
theorem cover (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  have hN : cfg0.N = 256 := N256
  have hlt : (i 0).val / 512 * 32 + (i 1).val / 512 * 4 + 3 < cfg0.N := by omega
  refine ⟨⟨(i 0).val / 512 * 32 + (i 1).val / 512 * 4 + 3, hlt⟩, (flush0_6 _).mpr (by show ((i 0).val / 512 * 32 + (i 1).val / 512 * 4 + 3) % 4 = 3; omega), ?_⟩
  obtain ⟨-, -, -, -, -, -, -, -, -, -, -, -, e0, e1⟩ := idx_facts ⟨(i 0).val / 512 * 32 + (i 1).val / 512 * 4 + 3, hlt⟩
  rw [mem_blk]
  intro a
  match a with
  | ⟨0, _⟩ =>
    show win0_6.index ⟨(i 0).val / 512 * 32 + (i 1).val / 512 * 4 + 3, hlt⟩ (0 : Fin 2) * 512 ≤ (i 0).val ∧ (i 0).val < win0_6.index ⟨(i 0).val / 512 * 32 + (i 1).val / 512 * 4 + 3, hlt⟩ (0 : Fin 2) * 512 + 512
    rw [e0]
    show ((i 0).val / 512 * 32 + (i 1).val / 512 * 4 + 3) / 32 * 512 ≤ (i 0).val ∧ (i 0).val < ((i 0).val / 512 * 32 + (i 1).val / 512 * 4 + 3) / 32 * 512 + 512
    omega
  | ⟨1, _⟩ =>
    show win0_6.index ⟨(i 0).val / 512 * 32 + (i 1).val / 512 * 4 + 3, hlt⟩ (1 : Fin 2) * 512 ≤ (i 1).val ∧ (i 1).val < win0_6.index ⟨(i 0).val / 512 * 32 + (i 1).val / 512 * 4 + 3, hlt⟩ (1 : Fin 2) * 512 + 512
    rw [e1]
    show ((i 0).val / 512 * 32 + (i 1).val / 512 * 4 + 3) / 4 % 8 * 512 ≤ (i 1).val ∧ (i 1).val < ((i 0).val / 512 * 32 + (i 1).val / 512 * 4 + 3) / 4 % 8 * 512 + 512
    omega

/-- The result array after the run is the specified result. -/
theorem final (c : Dev nD) : (dats m 0 c).arrAt 6 cfg0.N = spec m c :=
  (dats m 0 c).arrAt_eq_of_cover 6 (spec m c) (flushed_eq m c) cover

/-- The run: every fair execution ends with the result array at the specified result and the arguments as they were. -/
theorem run : θ_run defs (onTc (τ := τ) (main (F := Ideal))) ⟨m, fun _ => 0, ρ⟩ fun r => ∀ c : Dev nD,
      r.2.mem ((c : Thread nD τ).loc main_v7) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.KValue

end
-- ==== Proof.RefIsSpec.lean ====
/-
  The reference computes the specified function.

  Read one operation at a time, the reference forms h·a (a spread over the rows), (h·q)·pᵀ, their sum times the literal 1,
  adds h, and adds the literal 1 times x·b. At (r, s) the two-step spread of a reads a(s); the product with pᵀ reads
  Σ_ρ (h·q)(r, ρ)·p(s, ρ), the transpose read back; h·q reads Σ_n h(r, n)·q(n, ρ); x·b reads Σ_κ x(r, κ)·b(κ, s).
-/
import proofs.«117098_j9680856285215_1_alg».proof.Proof.Gen.ReferenceIdeal.Read
import proofs.«117098_j9680856285215_1_alg».proof.Proof.Spec

noncomputable section

open scoped BigOperators
open Idealize.ShloMosaic Idealize.ShloMosaic.ValueIdx

namespace Cert.ReferenceIdeal.RefValue

open Cert.ReferenceIdeal Cert.ReferenceIdeal.Read

/-- a spread to one row and then to every row reads a at the column. -/
theorem idx_a (r s : Fin 4096) : idx_main_v0 (idx_main_v1 (ix2 r s)) = ix1 s :=
  funext fun d => Fin.ext (by match d with | ⟨0, _⟩ => rfl)

theorem lidx_low (r s : Fin 4096) (k : Fin 4) : lidx_main_v5 (ix2 r s) k = ix2 r k :=
  funext fun d => Fin.ext (by match d with | ⟨0, _⟩ => rfl | ⟨1, _⟩ => rfl)

theorem ridx_low (r s : Fin 4096) (k : Fin 4) : ridx_main_v5 (ix2 r s) k = ix2 k s :=
  funext fun d => Fin.ext (by match d with | ⟨0, _⟩ => rfl | ⟨1, _⟩ => rfl)

theorem lidx_hq (r : Fin 4096) (k : Fin 4) (n : Fin 4096) : lidx_main_v3 (ix2 r k) n = ix2 r n :=
  funext fun d => Fin.ext (by match d with | ⟨0, _⟩ => rfl | ⟨1, _⟩ => rfl)

theorem ridx_hq (r : Fin 4096) (k : Fin 4) (n : Fin 4096) : ridx_main_v3 (ix2 r k) n = ix2 n k :=
  funext fun d => Fin.ext (by match d with | ⟨0, _⟩ => rfl | ⟨1, _⟩ => rfl)

theorem idx_pT (k : Fin 4) (s : Fin 4096) : idx_main_v4 (ix2 k s) = ix2 s k :=
  funext fun d => Fin.ext (by match d with | ⟨0, _⟩ => rfl | ⟨1, _⟩ => rfl)

theorem lidx_xb (r s κ : Fin 4096) : lidx_main_v10 (ix2 r s) κ = ix2 r κ :=
  funext fun d => Fin.ext (by match d with | ⟨0, _⟩ => rfl | ⟨1, _⟩ => rfl)

theorem ridx_xb (r s κ : Fin 4096) : ridx_main_v10 (ix2 r s) κ = ix2 κ s :=
  funext fun d => Fin.ext (by match d with | ⟨0, _⟩ => rfl | ⟨1, _⟩ => rfl)

/-- The reference's last stage is the specified result of its six arguments. -/
theorem ref_eq (x0 x1 : (⟨S4096x4096, .f32⟩ : BufTy).Contents (Elt Ideal)) (x2 : (⟨S4096, .f32⟩ : BufTy).Contents (Elt Ideal))
    (x3 x4 : (⟨S4096x4, .f32⟩ : BufTy).Contents (Elt Ideal)) (x5 : (⟨S4096x4096, .f32⟩ : BufTy).Contents (Elt Ideal)) :
    val_main_v13 (F := Ideal) x0 x1 x2 x3 x4 x5 = Cert.Spec.result x0 x1 x5 x2 x3 x4 := by
  funext i
  obtain ⟨r, s, rfl⟩ : ∃ (r s : Fin 4096), i = ix2 r s := ⟨i 0, i 1, eq_ix2 i⟩
  rw [Cert.Spec.result_apply]
  unfold Cert.Spec.entry
  rw [val_main_v13_apply, val_main_v9_apply, val_main_v8_apply, val_main_v7_apply, val_main_cst_apply, val_main_v6_apply,
    val_main_v2_apply, val_main_v1_apply, val_main_v0_apply, val_main_v5_apply, val_main_v12_apply, val_main_v11_apply,
    val_main_cst_0_apply, val_main_v10_apply]
  simp only [val_main_v3_apply, val_main_v4_apply, idx_a, lidx_low, ridx_low, lidx_hq, ridx_hq, idx_pT, lidx_xb, ridx_xb,
    Ideal.addf_def, Ideal.mulf_def, Ideal.ofBits_def]

end Cert.ReferenceIdeal.RefValue

end
-- ==== Proof.lean ====
/-
  The certificate's claim, assembled.

  The kernel computes out = h + 1·(h·a + (h·q)·pᵀ) + 1·(x·b) on 512×512 output blocks, the product x·b accumulated over four
  1024-wide slices of the contracted axis in a scratch block; the reference computes the same expression with whole-array
  operations. Over the extended reals both end holding, at every (r, s),

      (h(r,s) + 1·(h(r,s)·a(s) + Σ_ρ (Σ_n h(r,n)·q(n,ρ))·p(s,ρ))) + 1·Σ_κ x(r,κ)·b(κ,s):

  the kernel's sliced accumulation is the whole sum over κ because addition of extended reals is associative and commutative
  and the accumulator starts from zero; the half-width copies the kernel reads are the identity there. No distributive or
  cancellation law is used, so the finiteness of the inputs is never called on.
  The three frames are the kernels' generated frames and the reference's generated run; the idealization rewrote nothing, so
  the preservation claim is trivial.
-/
import proofs.«117098_j9680856285215_1_alg».proof.Defs
import proofs.«117098_j9680856285215_1_alg».proof.Proof.Gen.Kernel
import proofs.«117098_j9680856285215_1_alg».proof.Proof.Gen.Kernel.Skeleton
import proofs.«117098_j9680856285215_1_alg».proof.Proof.Gen.Kernel.Launch
import proofs.«117098_j9680856285215_1_alg».proof.Proof.Gen.Kernel.Points
import proofs.«117098_j9680856285215_1_alg».proof.Proof.Gen.Kernel.Frame
import proofs.«117098_j9680856285215_1_alg».proof.Proof.Gen.KernelIdeal
import proofs.«117098_j9680856285215_1_alg».proof.Proof.Gen.KernelIdeal.Skeleton
import proofs.«117098_j9680856285215_1_alg».proof.Proof.Gen.KernelIdeal.Launch
import proofs.«117098_j9680856285215_1_alg».proof.Proof.Gen.KernelIdeal.Points
import proofs.«117098_j9680856285215_1_alg».proof.Proof.Gen.KernelIdeal.Frame
import proofs.«117098_j9680856285215_1_alg».proof.Proof.Gen.ReferenceIdeal
import proofs.«117098_j9680856285215_1_alg».proof.Proof.Gen.Pre_finite_inputs
import proofs.«117098_j9680856285215_1_alg».proof.Proof.Gen.KernelIdeal.Value
import proofs.«117098_j9680856285215_1_alg».proof.Proof.Gen.ReferenceIdeal.Run
import proofs.«117098_j9680856285215_1_alg».proof.Proof.Gen.ReferenceIdeal.Read
import proofs.«117098_j9680856285215_1_alg».proof.Proof.KernelValue
import proofs.«117098_j9680856285215_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, the kernel's result array and the reference's both end at the specified
    result of those arguments. -/
theorem algebraic : Cert.algebraic_KernelIdeal_ReferenceIdeal := by
  intro m ρ m' ρ' _ hagree
  refine ⟨fun c => Cert.KernelIdeal.KValue.spec m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
